-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Rbf.lean ====
/-
  The Gaussian (radial basis function) kernel matrix of two families of 8192 points in 64 dimensions, as ONE function of
  the two coordinate arrays, entry by entry over the extended reals:

      rbf x y (n, m) = exp (c₋₁ · max ((‖xₙ‖² + ‖yₘ‖²) − c₂ · ⟨xₙ, yₘ⟩) c₀)

  with ‖xₙ‖² = ∑ₖ xₙₖ · xₙₖ, ⟨xₙ, yₘ⟩ = ∑ₖ xₙₖ · yₘₖ (k over the 64 coordinates) and c₋₁, c₂, c₀ the values of the three
  single-precision words for −1, 2 and 0 — the same words in both programs, so they are never evaluated. The squared
  distance is spelt by its expansion ‖x‖² + ‖y‖² − 2⟨x, y⟩ and clamped at zero from below before the exponential.
  Nothing here needs the entries to be finite: both programs form the same sums, products, difference, maximum and
  exponential of the same entries, and only the ORDER of the terms of a finite sum differs between them, which a sum in
  a commutative monoid does not see.

  Also two small facts about re-laying a column, in the form the block computation meets them: a vector of length a
  cast to an a × 1 column reads, at (i, u), the vector at i; and an a × 1 column spread over b columns reads, at
  (p, c), the column at (p, 0).
-/
import Idealize.ShloMosaic.PureOps.Ideal.Laws
import Idealize.ShloMosaic.Lib.ValueIdx
import Idealize.ShloMosaic.Lib.ValueLayout

noncomputable section

open scoped BigOperators

namespace Cert.Rbf

open Idealize.ShloMosaic Idealize.ShloMosaic.ValueIdx

/-- The squared Euclidean norm of row `n` of a [N, 64] array: the sum of the squares of its 64 coordinates. -/
def sqNorm {N : ℕ} (x : (⟨2, ![N, 64]⟩ : Shape).Idx → EReal) (n : Fin N) : EReal :=
  ∑ k : Fin 64, x (ix2 n k) * x (ix2 n k)

/-- The inner product of row `n` of `x` with row `m` of `y`. -/
def rowDot {N M : ℕ} (x : (⟨2, ![N, 64]⟩ : Shape).Idx → EReal) (y : (⟨2, ![M, 64]⟩ : Shape).Idx → EReal) (n : Fin N) (m : Fin M) : EReal :=
  ∑ k : Fin 64, x (ix2 n k) * y (ix2 m k)

/-- One entry of the kernel matrix from the two squared norms `a`, `b` and the inner product `c`:
    `exp (−1 · max ((a + b) − 2 · c) 0)`, the three constants kept as the words both programs print. -/
def entry (a b c : EReal) : EReal :=
  Ideal.exp (Ideal.ofBits .f32 0xBF800000#32
    * max ((a + b) - Ideal.ofBits .f32 0x40000000#32 * c) (Ideal.ofBits .f32 0x00000000#32))

/-- The kernel matrix of `x` (rows indexed by `n`) against `y` (rows indexed by `m`), as a function of its index (n, m). -/
def rbf {N M : ℕ} (x : (⟨2, ![N, 64]⟩ : Shape).Idx → EReal) (y : (⟨2, ![M, 64]⟩ : Shape).Idx → EReal) :
    (⟨2, ![N, M]⟩ : Shape).Idx → EReal :=
  fun i => entry (sqNorm x (i 0)) (sqNorm y (i 1)) (rowDot x y (i 0) (i 1))

theorem rbf_ix2 {N M : ℕ} (x : (⟨2, ![N, 64]⟩ : Shape).Idx → EReal) (y : (⟨2, ![M, 64]⟩ : Shape).Idx → EReal) (n : Fin N) (m : Fin M) :
    rbf x y (ix2 n m) = entry (sqNorm x n) (sqNorm y m) (rowDot x y n m) := rfl

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf

end
-- ==== Proof.RbfBlock.lean ====
/-
  What ONE grid point computes. The body loads a 1024 × 64 block of each coordinate array (rows of `x` and rows of `y`)
  and stores a 1024 × 1024 block of the result. At the exact values its entry (p, q) is

      exp (c₋₁ · max ((∑ₖ x₀[p,k]² + ∑ₖ x₁[q,k]²) − c₂ · ∑ₖ x₀[p,k] · x₁[q,k]) c₀)

  — the kernel-matrix entry of row p of the first block against row q of the second:
  • a lane sum over the 64 coordinates, kept as a column and spread over the 1024 columns, reads at (p, q) the sum
    of row p; the same column transposed to a row and spread over the 1024 rows reads the sum of row q;
  • the matrix unit's product of the first block with the TRANSPOSE of the second, into a zero accumulator, reads
    at (p, q) the sum over k of x₀[p,k] · x₁[q,k] (the narrowing of the two operands to half precision changes no
    value here); the contraction index of the product has one axis of extent 64, and is re-indexed by that
    coordinate;
  • everything else in the body is entrywise.
-/
import proofs.«132568_j65481071401357_1_alg».proof.Proof.Gen.KernelIdeal.Skeleton
import proofs.«132568_j65481071401357_1_alg».proof.Proof.Rbf
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf

open Idealize.ShloMosaic Idealize.ShloMosaic.ValueIdx Cert.KernelIdeal Cert.KernelIdeal.Gen

/-! ## The lane sums -/

/-- The sum over the 64 lanes of a 1024 × 64 block, read at row `p`. -/
theorem laneSum_apply (v : FVec Ideal S1024x64 .f32) (p : Fin 1024) :
    multiReduction .add [1] S1024 v 0x00000000#32 reduces_S1024x64_S1024 (.inl rfl) rfl (ix1 p) = ∑ k : Fin 64, v (ix2 p k) := by
  refine (Ideal.multiReduction_add_single v 0x00000000#32 reduces_S1024x64_S1024 (.inl rfl) rfl (ix1 p)).trans ?_
  exact Finset.sum_congr rfl fun k _ => congrArg v (funext fun a => Fin.ext (by match a with | ⟨0, _⟩ => rfl | ⟨1, _⟩ => rfl))

/-- Kept as a column and spread over the 1024 columns, it reads at (p, q) the sum of row `p`. -/
theorem laneSum_col_apply (v : FVec Ideal S1024x64 .f32) (p q : Fin 1024) :
    broadcastTo S1024x1024 (shapeCast S1024x1 (multiReduction .add [1] S1024 v 0x00000000#32 reduces_S1024x64_S1024 (.inl rfl) rfl) shapeCasts_S1024_S1024x1) broadcasts_S1024x1_S1024x1024 (ix2 p q)
      = ∑ k : Fin 64, v (ix2 p k) :=
  (broadcastTo_a1_ab_apply _ broadcasts_S1024x1_S1024x1024 p q).trans
    ((shapeCast_a_a1_apply _ shapeCasts_S1024_S1024x1 p 0).trans (laneSum_apply v p))

/-- The column transposed to a row and spread over the 1024 rows reads at (p, q) the sum of row `q`. -/
theorem laneSum_row_apply (v : FVec Ideal S1024x64 .f32) (p q : Fin 1024) :
    broadcastTo S1024x1024 (transpose S1x1024 [1, 0] (shapeCast S1024x1 (multiReduction .add [1] S1024 v 0x00000000#32 reduces_S1024x64_S1024 (.inl rfl) rfl) shapeCasts_S1024_S1024x1) transposes_S1024x1_p1_0_S1x1024) broadcasts_S1x1024_S1024x1024 (ix2 p q)
      = ∑ k : Fin 64, v (ix2 q k) :=
  (broadcastTo_1b_ab_apply _ broadcasts_S1x1024_S1024x1024 p q).trans
    ((transpose_ix2_apply _ transposes_S1024x1_p1_0_S1x1024 (0 : Fin 1) q).trans
      ((shapeCast_a_a1_apply _ shapeCasts_S1024_S1024x1 q 0).trans (laneSum_apply v q)))

/-! ## The product of the first block with the transpose of the second -/

/-- The left operand is read at the result's row … -/
theorem lhs_gram_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- … and at the contraction coordinate; -/
theorem lhs_gram_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- the right operand (64 × 1024) at the contraction coordinate … -/
theorem rhs_gram_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- … and at the result's column. -/
theorem rhs_gram_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product into a zero accumulator reads at (p, q) the sum over the 64 coordinates of x₀[p,k] · x₁[q,k]. -/
theorem gram_apply (x0 x1 : FVec Ideal S1024x64 .f32) (p q : Fin 1024) :
    matmul dot_S1024x64_S64x1024_S1024x1024_1_0_0_1_n_n none (truncf .bf16 x0 bitsLt_bf16_f32)
        (transpose S64x1024 [1, 0] (truncf .bf16 x1 bitsLt_bf16_f32) transposes_S1024x64_p1_0_S64x1024)
        (constant S1024x1024 .f32 0x00000000#32) (ix2 p q)
      = ∑ k : Fin 64, x0 (ix2 p k) * x1 (ix2 q k) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun a => Fin.ext (by
    match a with
    | ⟨0, _⟩ => exact lhs_gram_0 _ _
    | ⟨1, _⟩ => exact (lhs_gram_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun a => Fin.ext (by
    match a with
    | ⟨0, _⟩ => exact (rhs_gram_0 _ _).trans hk
    | ⟨1, _⟩ => exact rhs_gram_1 _ _)
  rw [el, er]
  exact congrArg (x0 (ix2 p k) * ·) (transpose_ix2_apply _ transposes_S1024x64_p1_0_S64x1024 k q)

/-! ## The body's result at an entry -/

/-- The exponential of a vector, read at an index. -/
theorem exp_apply {s : Shape} {φ : FTy} (a : FVec Ideal s φ) (i : s.Idx) : exp a i = Ideal.exp (a i) := rfl

/-- Entry (p, q) of the block the body stores is the kernel-matrix entry of row `p` of the first loaded block against
    row `q` of the second. -/
theorem pay_apply (x0 x1 : FVec Ideal S1024x64 .f32) (p q : Fin 1024) :
    k0_pay1 (F := Ideal) x0 x1 (ix2 p q) = entry (sqNorm x0 p) (sqNorm x1 q) (rowDot x0 x1 p q) := by
  unfold k0_pay1
  simp only [exp_apply, mulf_apply, subf_apply, addf_apply, maximumf_apply, broadcast_apply]
  rw [laneSum_col_apply, laneSum_row_apply, gram_apply]
  rfl

end Cert.Rbf

end
-- ==== Proof.RbfArray.lean ====
/-
  From the blocks to the whole array. The 8 × 8 grid tiles the 8192 × 8192 result with 1024 × 1024 blocks: point
  (i, j) loads rows 1024·i … 1024·i + 1023 of the first argument and rows 1024·j … 1024·j + 1023 of the second, and
  writes block (i, j) of the result. Entry (p, q) of that block depends only on row p of the first loaded block and
  row q of the second, which are rows 1024·i + p and 1024·j + q of the arguments: it is the kernel-matrix entry at
  (1024·i + p, 1024·j + q). So what each point writes back is its block of ONE function of the argument arrays; every
  index of the result lies in the block of the point (row / 1024, column / 1024); hence the array ends holding that
  function everywhere, and the run is restated with the result named so.
-/
import proofs.«132568_j65481071401357_1_alg».proof.Proof.Gen.KernelIdeal.Value
import proofs.«132568_j65481071401357_1_alg».proof.Proof.RbfBlock

noncomputable section

open scoped BigOperators

namespace Cert.Rbf

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The body's loads and its store start at the origin of their buffers. -/
theorem origin_eq : (![0, 0] : Fin 2 → Nat) = fun _ => 0 :=
  funext fun a => by match a with | ⟨0, _⟩ => rfl | ⟨1, _⟩ => rfl

/-- An entry of the stored block depends only on one row of each loaded block: if row `p` of the first is row `i 0`
    of `X` and row `q` of the second is row `i 1` of `Y`, entry (p, q) is the kernel-matrix entry of `X`, `Y` at `i`. -/
theorem block_entry (X Y : FVec Ideal S8192x64 .f32) (x0 x1 : FVec Ideal S1024x64 .f32) (p q : Fin 1024) (i : S8192x8192.Idx)
    (h0 : ∀ k : Fin 64, x0 (ix2 p k) = X (ix2 (i 0) k)) (h1 : ∀ k : Fin 64, x1 (ix2 q k) = Y (ix2 (i 1) k)) :
    k0_pay1 (F := Ideal) x0 x1 (ix2 p q) = rbf X Y i := by
  rw [pay_apply]
  unfold rbf sqNorm rowDot
  simp only [h0, h1]

/-- The index maps, decided over the 64 grid points: the first argument's block moves with the result's block row and
    the second's with its block column, both over the whole coordinate axis; the result's block indices are below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is block `t` of the kernel matrix of the argument arrays. -/
theorem flushed_eq (c : Dev nD) (t : Fin cfg0.N) :
    (dats m 0 c).flushed 2 t = ((cfg0.win 2).blk t).view.read (Elt Ideal) (rbf (V m c main_arg0) (V m c main_arg1)) := by
  rw [Cert.KernelIdeal.Value.flushed2]
  unfold out0_2
  rw [View.canon_unit_zero origin_eq]
  simp only [View.ld_unit_zero (S := S1024x64) origin_eq]
  obtain ⟨e00, e01, e10, e11, -, -⟩ := index_facts t
  show (fun y : S1024x1024.Idx => k0_pay1 (F := Ideal) (iblk m c 0 t) (iblk m c 1 t) y)
    = fun y : S1024x1024.Idx => rbf (V m c main_arg0) (V m c main_arg1) (((cfg0.win 2).blk t).view.emb y)
  funext y
  obtain ⟨p, q, rfl⟩ : ∃ (p q : Fin 1024), y = ix2 p q := ⟨y 0, y 1, eq_ix2 y⟩
  refine block_entry (V m c main_arg0) (V m c main_arg1) (iblk m c 0 t) (iblk m c 1 t) p q
    (((cfg0.win 2).blk t).view.emb (ix2 p q)) (fun k => ?_) (fun k => ?_)
  · show V m c main_arg0 (((cfg0.win 0).blk t).view.emb (ix2 p k))
      = V m c main_arg0 (ix2 ((((cfg0.win 2).blk t).view.emb (ix2 p q)) 0) k)
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  · show V m c main_arg1 (((cfg0.win 1).blk t).view.emb (ix2 q k))
      = V m c main_arg1 (ix2 ((((cfg0.win 2).blk t).view.emb (ix2 p q)) 1) k)
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 64 + 1 * k.val = k.val; omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in the block of the point (row / 1024, column / 1024), which writes back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the kernel matrix of the argument arrays as launched. -/
theorem final (c : Dev nD) :
    (dats m 0 c).arrAt 2 cfg0.N = rbf (m ((c : Thread nD τ).loc main_arg0)) (m ((c : Thread nD τ).loc main_arg1)) :=
  (dats m 0 c).arrAt_eq_of_cover 2 (rbf (V m c main_arg0) (V m c main_arg1)) (fun t _ => flushed_eq m c t) cover

/-- The run, with the result named: it ends holding the kernel matrix of the arguments, which are unchanged. -/
theorem run : θ_run defs (onTc (τ := τ) (main (F := Ideal))) ⟨m, fun _ => 0, ρ⟩ fun r => ∀ c : Dev nD,
      r.2.mem ((c : Thread nD τ).loc main_v0) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Rbf

end
-- ==== Proof.RbfReference.lean ====
/-
  The reference computes the kernel matrix: its last stage, read at an entry (n, m) one operation at a time, is

      exp (c₋₁ · max (((0 + ∑ₖ x[n,k]²) + (0 + ∑ₖ y[m,k]²)) − c₂ · ∑ₖ x[n,k] · y[m,k]) c₀)

  — the host's two sums of squares start from the zero word, which is the real 0; its contraction of the two arrays
  over their coordinate axis is the plain sum of products; its exponential is the same function of an extended real
  as the vector unit's. The index each stage is read at is a composition of the stages' index maps; at (n, m) each
  composition is (n, k) or (m, k).
-/
import proofs.«132568_j65481071401357_1_alg».proof.Proof.Gen.ReferenceIdeal.Read
import proofs.«132568_j65481071401357_1_alg».proof.Proof.Rbf

noncomputable section

open scoped BigOperators

namespace Cert.Rbf

open Idealize.ShloMosaic Idealize.ShloMosaic.ValueIdx Cert.ReferenceIdeal Cert.ReferenceIdeal.Gen Cert.ReferenceIdeal.Read

/-- The square-norm of `x`, broadcast along the columns, is summed over row `n` of `x`. -/
theorem idx_sq_x (n m : Fin 8192) (k : Fin 64) : idx_main_v1 (idx_main_v5 (idx_main_v7 (ix2 n m))) k = ix2 n k :=
  funext fun a => Fin.ext (by match a with | ⟨0, _⟩ => rfl | ⟨1, _⟩ => rfl)
/-- The square-norm of `y`, broadcast along the rows, is summed over row `m` of `y`. -/
theorem idx_sq_y (n m : Fin 8192) (k : Fin 64) : idx_main_v3 (idx_main_v6 (idx_main_v8 (ix2 n m))) k = ix2 m k :=
  funext fun a => Fin.ext (by match a with | ⟨0, _⟩ => rfl | ⟨1, _⟩ => rfl)
/-- The contraction reads row `n` of `x` … -/
theorem idx_dot_x (n m : Fin 8192) (k : Fin 64) : lidx_main_v4 (ix2 n m) k = ix2 n k :=
  funext fun a => Fin.ext (by match a with | ⟨0, _⟩ => rfl | ⟨1, _⟩ => rfl)
/-- … against row `m` of `y`. -/
theorem idx_dot_y (n m : Fin 8192) (k : Fin 64) : ridx_main_v4 (ix2 n m) k = ix2 m k :=
  funext fun a => Fin.ext (by match a with | ⟨0, _⟩ => rfl | ⟨1, _⟩ => rfl)

/-- The reference's result is the kernel matrix of its two arguments. -/
theorem reference_eq (x y : (⟨S8192x64, .f32⟩ : BufTy).Contents (Elt Ideal)) :
    val_main_v17 (F := Ideal) x y = rbf x y := by
  funext i
  obtain ⟨n, m, rfl⟩ : ∃ (n m : Fin 8192), i = ix2 n m := ⟨i 0, i 1, eq_ix2 i⟩
  rw [rbf_ix2]
  simp only [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v8_apply, val_main_v6_apply, val_main_v3_apply,
    val_main_cst_0_apply, val_main_v2_apply, val_main_v7_apply, val_main_v5_apply, val_main_v1_apply, val_main_cst_apply,
    val_main_v0_apply, idx_sq_x, idx_sq_y, idx_dot_x, idx_dot_y,
    Ideal.hostUnary_exp_def, Ideal.mulf_def, Ideal.addf_def, Ideal.subf_def, Ideal.maximumf_def, Ideal.ofBits_def,
    entry, sqNorm, rowDot, Ideal.ofBits_zero_f32, zero_add]

end Cert.Rbf

end
-- ==== Proof.lean ====
/-
  The Gaussian (radial basis function) kernel matrix out[n, m] = exp (−‖xₙ − yₘ‖²) of two families of 8192 points in
  64 dimensions, the squared distance spelt ‖xₙ‖² + ‖yₘ‖² − 2⟨xₙ, yₘ⟩ and clamped at zero from below.

  The tiled program computes it block by block on an 8 × 8 grid: each point loads 1024 rows of `x` and 1024 rows of
  `y`, takes the rows' squared norms by lane sums, their inner products by one product of the first block with the
  transpose of the second on the matrix unit, and stores the 1024 × 1024 block of exponentials. The reference takes
  the same sums and one contraction of the whole arrays on the host. Over the extended reals the two are ONE function
  of the argument arrays, entry by entry: an entry (n, m) depends only on row n of `x` and row m of `y`, and both
  programs form the same sums of the same products (in a different order, which a finite sum in a commutative monoid
  does not see), the same difference, maximum and exponential, with the same three constant words. No entry needs to
  be finite for this, so the precondition is never opened.

  • the three programs run, fault nowhere and leave their arguments unchanged: the tiled program by its pipeline's
    frame (at the machine's words and at the exact values alike), the reference by its straight-line run;
  • the exact-valued tiled program is the tiled program's own text read at the exact values: nothing was rewritten, so
    there is nothing to preserve;
  • the two exact-valued programs end with equal results: the tiled program's result array is the kernel matrix of its
    arguments (each point writes its block of it, and the blocks cover the array), the reference's last stage read
    entry by entry is the same function, and the arguments agree.
-/
import proofs.«132568_j65481071401357_1_alg».proof.Defs
import proofs.«132568_j65481071401357_1_alg».proof.Proof.Gen.Kernel
import proofs.«132568_j65481071401357_1_alg».proof.Proof.Gen.Kernel.Skeleton
import proofs.«132568_j65481071401357_1_alg».proof.Proof.Gen.Kernel.Launch
import proofs.«132568_j65481071401357_1_alg».proof.Proof.Gen.Kernel.Points
import proofs.«132568_j65481071401357_1_alg».proof.Proof.Gen.Kernel.Frame
import proofs.«132568_j65481071401357_1_alg».proof.Proof.Gen.KernelIdeal
import proofs.«132568_j65481071401357_1_alg».proof.Proof.Gen.KernelIdeal.Skeleton
import proofs.«132568_j65481071401357_1_alg».proof.Proof.Gen.KernelIdeal.Launch
import proofs.«132568_j65481071401357_1_alg».proof.Proof.Gen.KernelIdeal.Points
import proofs.«132568_j65481071401357_1_alg».proof.Proof.Gen.KernelIdeal.Frame
import proofs.«132568_j65481071401357_1_alg».proof.Proof.Gen.ReferenceIdeal
import proofs.«132568_j65481071401357_1_alg».proof.Proof.Gen.Pre_finite_inputs
import proofs.«132568_j65481071401357_1_alg».proof.Proof.Gen.KernelIdeal.Value
import proofs.«132568_j65481071401357_1_alg».proof.Proof.Gen.ReferenceIdeal.Run
import proofs.«132568_j65481071401357_1_alg».proof.Proof.Gen.ReferenceIdeal.Read
import proofs.«132568_j65481071401357_1_alg».proof.Proof.RbfArray
import proofs.«132568_j65481071401357_1_alg».proof.Proof.RbfReference
import Idealize.ShloMosaic.Adequacy
import Idealize.ShloMosaic.Init

noncomputable section

namespace Cert.Proof

open Idealize.ShloMosaic Idealize.SL.Sem

/-- The tiled program, at the machine's words, runs and leaves its arguments unchanged. -/
theorem frame_kernel : Cert.frame_Kernel := fun m ρ _ => Cert.Kernel.Gen.frame m ρ

/-- The same program at the exact values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the tiled program was rewritten for the exact values. -/
theorem preserves : Cert.preserves_Kernel_KernelIdeal := trivial

/-- Both exact-valued programs end holding the kernel matrix of their arguments, and the arguments agree. -/
theorem algebraic : Cert.algebraic_KernelIdeal_ReferenceIdeal := by
  intro m ρ m' ρ' _ hagree
  refine ⟨_, Cert.Rbf.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
